-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S1024x1024 : Shape := ⟨2, ![1024, 1024]⟩
abbrev S64x1024x1024 : Shape := ⟨3, ![64, 1024, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_

variable [Facts]

def fn_part1 {F : FTy → Type} [FloatOps F] (main_arg4 : FVec F S64x1024x1024 .f32) (main_arg5 : FVec F S64x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64x1024x1024 .f32 := Host.absf main_arg4
  let main_cst_6 : FVec F S_ .f32 := constant S_ .f32 0x7F800000#32
  let main_v20 : FVec F S64x1024x1024 .f32 := broadcastInDim S64x1024x1024 ![] bcast_S_S64x1024x1024 main_cst_6
  let main_v21 : IVec S64x1024x1024 1 := cmpf .olt main_v19 main_v20
  let main_c_7 : IVec S_ 1 := constantI S_ 1 1#1
  let main_v22 : IVec S_ 1 := (fun x v => Host.reduce IntOp.andi x v reducesTo_S64x1024x1024_S_d0_1_2 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  main_v28

def fn {F : FTy → Type} [FloatOps F] (main_arg0 : FVec F S64x1024 .f32) (main_arg1 : FVec F S1024x1024 .f32) (main_arg2 : FVec F S1024x1024 .f32) (main_arg3 : FVec F S64x1024 .f32) (main_arg4 : FVec F S64x1024x1024 .f32) (main_arg5 : FVec F S64x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_v13 main_v16
-- ==== Kernel.lean ====
abbrev S64x1024 : Shape := ⟨2, ![64, 1024]⟩
abbrev S1024x1024 : Shape := ⟨2, ![1024, 1024]⟩
abbrev S64x1024x1024 : Shape := ⟨3, ![64, 1024, 1024]⟩
abbrev S16x1024 : Shape := ⟨2, ![16, 1024]⟩
abbrev S128x1024 : Shape := ⟨2, ![128, 1024]⟩
abbrev S16x128 : Shape := ⟨2, ![16, 128]⟩
abbrev S16x128x1024 : Shape := ⟨3, ![16, 128, 1024]⟩
abbrev S1x128x1024 : Shape := ⟨3, ![1, 128, 1024]⟩
abbrev S16x1x1024 : Shape := ⟨3, ![16, 1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024x1024, .f32⟩
  | .hbm, ⟨3, _⟩ => ⟨S64x1024, .f32⟩
  | .hbm, ⟨4, _⟩ => ⟨S64x1024x1024, .f32⟩
  | .hbm, ⟨5, _⟩ => ⟨S64x1024, .f32⟩
  | .hbm, ⟨6, _⟩ => ⟨S64x1024, .f32⟩
  | .hbm, ⟨7, _⟩ => ⟨S64x1024x1024, .f32⟩
  | .hbm, ⟨8, _⟩ => ⟨S64x1024, .f32⟩
  | .local _ .vmem, ⟨0, _⟩ => ⟨S16x1024, .f32⟩
  | .local _ .vmem, ⟨1, _⟩ => ⟨S16x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S16x128, .f32⟩
  | .local _ .vmem, ⟨7, _⟩ => ⟨S16x128, .f32⟩
  | .local _ .vmem, ⟨8, _⟩ => ⟨S16x128x1024, .f32⟩
  | .local _ .vmem, ⟨9, _⟩ => ⟨S16x128x1024, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128x1024, .f32⟩
  | .local _ .vmem, ⟨15, _⟩ => ⟨S16x128x1024, .f32⟩
  | .local _ .vmem, ⟨16, _⟩ => ⟨S16x128, .f32⟩
  | .local _ .vmem, ⟨17, _⟩ => ⟨S16x128, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S128x1024_S128x1024_0_0 : ∀ a, (![0, 0] : Fin 2 → Nat) a + S128x1024.size a ≤ S128x1024.size a
  h_S128x1024 : 0 < S128x1024.numel
  inb_S16x1024_S16x1024_0_0 : ∀ a, (![0, 0] : Fin 2 → Nat) a + S16x1024.size a ≤ S16x1024.size a
  h_S16x1024 : 0 < S16x1024.numel
  inb_S16x128x1024_S16x128x1024_0_0_0 : ∀ a, (![0, 0, 0] : Fin 3 → Nat) a + S16x128x1024.size a ≤ S16x128x1024.size a
  h_S16x128x1024 : 0 < S16x128x1024.numel
  shapeCasts_S128x1024_S1x128x1024 : S128x1024.ShapeCasts S1x128x1024
  broadcasts_S1x128x1024_S16x128x1024 : S1x128x1024.Broadcasts S16x128x1024
  shapeCasts_S16x1024_S16x1x1024 : S16x1024.ShapeCasts S16x1x1024
  broadcasts_S16x1x1024_S16x128x1024 : S16x1x1024.Broadcasts S16x128x1024
  reduces_S16x128x1024_S16x128 : S16x128x1024.Reduces [2] S16x128
  inb_S16x128_S16x128_0_0 : ∀ a, (![0, 0] : Fin 2 → Nat) a + S16x128.size a ≤ S16x128.size a
  h_S16x128 : 0 < S16x128.numel
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S64x1024.size a
  hwx0_0 : ∀ i : grid0.Coords, EltTy.bits .f32 = 32 ∨ (Rect.block (s := S64x1024) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S1024x1024.size a
  hwx0_1 : ∀ i : grid0.Coords, EltTy.bits .f32 = 32 ∨ (Rect.block (s := S1024x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .f32 = 32 ∨ (Rect.block (s := S1024x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S64x1024.size a
  hwx0_3 : ∀ i : grid0.Coords, EltTy.bits .f32 = 32 ∨ (Rect.block (s := S64x1024) S16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x1024.size a ≤ S64x1024x1024.size a
  hwx0_4 : ∀ i : grid0.Coords, EltTy.bits .f32 = 32 ∨ (Rect.block (s := S64x1024x1024) S16x128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S64x1024.size a
  hwx0_5 : ∀ i : grid0.Coords, EltTy.bits .f32 = 32 ∨ (Rect.block (s := S64x1024) S16x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S64x1024.size a
  hwx0_6 : ∀ i : grid0.Coords, EltTy.bits .f32 = 32 ∨ (Rect.block (s := S64x1024) S16x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128x1024.size a ≤ S64x1024x1024.size a
  hwx0_7 : ∀ i : grid0.Coords, EltTy.bits .f32 = 32 ∨ (Rect.block (s := S64x1024x1024) S16x128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x128.size a ≤ S64x1024.size a
  hwx0_8 : ∀ i : grid0.Coords, EltTy.bits .f32 = 32 ∨ (Rect.block (s := S64x1024) S16x128.size (cc0_transform_8 i) (hinb0_8 i)).WholeWords (EltTy.packing .f32)

variable [Facts₀]

abbrev win0_0 : Pipeline.Window sig grid0 :=
  Pipeline.Window.ofSpec (Memref.whole main_arg0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S16x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S16x128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S16x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x1024 : Shape := ⟨2, ![64, 1024]⟩
abbrev S1024x1024 : Shape := ⟨2, ![1024, 1024]⟩
abbrev S64x1024x1024 : Shape := ⟨3, ![64, 1024, 1024]⟩
abbrev S1x1024x1024 : Shape := ⟨3, ![1, 1024, 1024]⟩
abbrev S64x1x1024 : Shape := ⟨3, ![64, 1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024x1024, .f32⟩
  | .hbm, ⟨3, _⟩ => ⟨S64x1024, .f32⟩
  | .hbm, ⟨4, _⟩ => ⟨S64x1024x1024, .f32⟩
  | .hbm, ⟨5, _⟩ => ⟨S64x1024, .f32⟩
  | .hbm, ⟨6, _⟩ => ⟨S1x1024x1024, .f32⟩
  | .hbm, ⟨7, _⟩ => ⟨S64x1024x1024, .f32⟩
  | .hbm, ⟨8, _⟩ => ⟨S64x1024x1024, .f32⟩
  | .hbm, ⟨9, _⟩ => ⟨S1x1024x1024, .f32⟩
  | .hbm, ⟨10, _⟩ => ⟨S64x1x1024, .f32⟩
  | .hbm, ⟨11, _⟩ => ⟨S64x1024x1024, .f32⟩
  | .hbm, ⟨12, _⟩ => ⟨S64x1024x1024, .f32⟩
  | .hbm, ⟨13, _⟩ => ⟨S64x1024x1024, .f32⟩
  | .hbm, ⟨14, _⟩ => ⟨S64x1024x1024, .f32⟩
  | .hbm, ⟨15, _⟩ => ⟨S_, .f32⟩
  | .hbm, ⟨16, _⟩ => ⟨S64x1024, .f32⟩
  | .hbm, ⟨17, _⟩ => ⟨S_, .f32⟩
  | .hbm, ⟨18, _⟩ => ⟨S64x1024, .f32⟩
  | .hbm, ⟨19, _⟩ => ⟨S64x1024, .f32⟩
  | .hbm, ⟨20, _⟩ => ⟨S64x1024, .f32⟩
  | .hbm, ⟨21, _⟩ => ⟨S_, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S_, .f32⟩
  | .hbm, ⟨26, _⟩ => ⟨S64x1024, .f32⟩
  | .hbm, ⟨27, _⟩ => ⟨S64x1024, .f32⟩
  | .hbm, ⟨28, _⟩ => ⟨S_, .f32⟩
  | .hbm, ⟨29, _⟩ => ⟨S64x1024, .f32⟩
  | .hbm, ⟨30, _⟩ => ⟨S64x1024, .i1⟩
  | .hbm, ⟨31, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)

variable [Facts₀]

class Facts : Prop extends Facts₀ where

variable [Facts]
-- ==== Proof.SpikingStep.lean ====
/-
  One time step of a spiking layer in which every synapse decays at its own rate, as a function of the six argument
  arrays, entry by entry, on the extended reals.

  For batch row b, output neuron j and input line i (64 rows, 1024 neurons, 1024 lines):
    * the synaptic current   I[b,j,i] = rho[j,i] * h[b,j,i] + w[j,i] * x[b,i];
    * the refractory current R[b,j]   = r * hR[b,j] + hz[b,j], with r the binary32 word 0x3F7383C6
      (the float nearest exp(-1/20); the same word on both sides, so its value is never needed);
    * the drive              D[b,j]   = sum over i of I[b,j,i];
    * the spike              z[b,j]   = 1 when (D[b,j] - 1 * R[b,j]) - 1 >= 0, else 0.
  The three results are z, I and R. Nothing here needs a law of arithmetic beyond 0 + s = s: both programs apply the
  same operations in the same order to the same entries, and differ only in how the arrays are cut into blocks, in
  how the row sum is spelt, and in how the comparison's bit is turned into a float.
-/
import Idealize.ShloMosaic.PureOps.Ideal
import Idealize.ShloMosaic.PureOps.Ideal.Laws
import Idealize.ShloMosaic.Lib.ValueIdx

noncomputable section

namespace Cert.SpikingStep

open Idealize.ShloMosaic Idealize.ShloMosaic.ValueIdx

/-- rows by lines; also rows by neurons, both extents being 1024 -/
abbrev RowsByLines : Shape := ⟨2, ![64, 1024]⟩
/-- neurons by lines: one entry per synapse -/
abbrev Synapses : Shape := ⟨2, ![1024, 1024]⟩
/-- rows by neurons by lines: one entry per synapse and batch row -/
abbrev RowSynapses : Shape := ⟨3, ![64, 1024, 1024]⟩

/-- The synaptic current: each synapse's own decay times its state, plus its weight times the line's input. -/
def current (x : FVec Ideal RowsByLines .f32) (w rho : FVec Ideal Synapses .f32) (h : FVec Ideal RowSynapses .f32) :
    FVec Ideal RowSynapses .f32 := fun i =>
  FloatOps.addf (FloatOps.mulf (rho (ix2 (i 1) (i 2))) (h i)) (FloatOps.mulf (w (ix2 (i 1) (i 2))) (x (ix2 (i 0) (i 2))))

/-- The refractory current: the fixed decay word times its state, plus the previous step's spikes. -/
def refractory (hz hr : FVec Ideal RowsByLines .f32) : FVec Ideal RowsByLines .f32 := fun i =>
  FloatOps.addf (FloatOps.mulf (FloatOps.ofBits .f32 0x3F7383C6#32) (hr i)) (hz i)

/-- A neuron's drive: its synaptic currents summed over the input lines. -/
def drive (x : FVec Ideal RowsByLines .f32) (w rho : FVec Ideal Synapses .f32) (h : FVec Ideal RowSynapses .f32) :
    FVec Ideal RowsByLines .f32 := fun i =>
  ∑ k : Fin 1024, current x w rho h (ix3 (i 0) (i 1) k)

/-- The comparison's bit: potential minus threshold is at least zero. -/
def fires (x : FVec Ideal RowsByLines .f32) (w rho : FVec Ideal Synapses .f32) (hz : FVec Ideal RowsByLines .f32)
    (h : FVec Ideal RowSynapses .f32) (hr : FVec Ideal RowsByLines .f32) : IVec RowsByLines 1 := fun i =>
  FloatOps.cmpf .oge
    (FloatOps.subf
      (FloatOps.subf (drive x w rho h i) (FloatOps.mulf (FloatOps.ofBits .f32 0x3F800000#32) (refractory hz hr i)))
      (FloatOps.ofBits .f32 0x3F800000#32))
    (FloatOps.ofBits (F := Ideal) .f32 0x00000000#32)

/-- The spike: the comparison's bit read as the float 0 or 1. -/
def spike (x : FVec Ideal RowsByLines .f32) (w rho : FVec Ideal Synapses .f32) (hz : FVec Ideal RowsByLines .f32)
    (h : FVec Ideal RowSynapses .f32) (hr : FVec Ideal RowsByLines .f32) : FVec Ideal RowsByLines .f32 := fun i =>
  FloatOps.uitofp .f32 (fires x w rho hz h hr i)

/-- A single bit widened with zeros to 32 bits and then read as a SIGNED integer is the bit read unsigned: the
    widened word is 0 or 1, whose sign bit is clear. -/
theorem toInt_widen_bit (b : BitVec 1) : ((b.setWidth 32).toInt : ℝ) = ((b.toNat : ℕ) : ℝ) := by
  have hb : b.toNat < 2 := b.isLt
  have h1 : (b.setWidth 32).toNat = b.toNat := by
    rw [BitVec.toNat_setWidth]; exact Nat.mod_eq_of_lt (by omega)
  have h2 : (b.setWidth 32).toInt = (b.toNat : Int) := by
    rw [BitVec.toInt_eq_toNat_cond, h1]; rw [if_pos (by omega)]
  rw [h2]; norm_cast

/-- So on the extended reals the two spellings of "bit to float" agree. -/
theorem sitofp_widen_bit (b : BitVec 1) :
    FloatOps.sitofp (F := Ideal) .f32 (b.setWidth 32) = FloatOps.uitofp (F := Ideal) .f32 b := by
  show (((b.setWidth 32).toInt : ℝ) : EReal) = (((b.toNat : ℕ) : ℝ) : EReal)
  rw [toInt_widen_bit]

end Cert.SpikingStep

end
-- ==== Proof.ReferenceStep.lean ====
/-
  The reference program's three results are the spiking step of SpikingStep.lean, entry by entry.

  The reference spells every array operation out on whole arrays: rho and w are first given a leading axis of extent
  one and then repeated along it over the 64 rows, x is given a middle axis of extent one and repeated over the 1024
  neurons; so the entry (b, j, i) of the repeated rho is rho[j,i], of the repeated w is w[j,i], of the repeated x is
  x[b,i]. Its row sum starts from the constant 0 and adds the 1024 currents of the row, which is their sum. The
  constants it multiplies, subtracts and compares with are the same binary32 words the step names.
-/
import proofs.«160878_j59399397704145_1_alg».proof.Proof.Gen.ReferenceIdeal.Read
import proofs.«160878_j59399397704145_1_alg».proof.Proof.SpikingStep

noncomputable section

namespace Cert.SpikingStep.OfReference

open Cert.ReferenceIdeal Cert.ReferenceIdeal.Read Idealize.ShloMosaic Idealize.ShloMosaic.ValueIdx

/-- The repeated decay (or weight) array at (b, j, i) is read at the synapse (j, i). -/
theorem synapse_of_rowSynapse (i : S64x1024x1024.Idx) : idx_main_v0 (idx_main_v1 i) = ix2 (i 1) (i 2) :=
  funext fun a => Fin.ext (by match a with | ⟨0, _⟩ => rfl | ⟨1, _⟩ => rfl)

/-- The same for the weights, which go through their own pair of repetitions. -/
theorem synapse_of_rowSynapse' (i : S64x1024x1024.Idx) : idx_main_v3 (idx_main_v5 i) = ix2 (i 1) (i 2) :=
  funext fun a => Fin.ext (by match a with | ⟨0, _⟩ => rfl | ⟨1, _⟩ => rfl)

/-- The repeated input at (b, j, i) is read at (b, i). -/
theorem line_of_rowSynapse (i : S64x1024x1024.Idx) : idx_main_v4 (idx_main_v6 i) = ix2 (i 0) (i 2) :=
  funext fun a => Fin.ext (by match a with | ⟨0, _⟩ => rfl | ⟨1, _⟩ => rfl)

/-- The reference's second result is the synaptic current. -/
theorem current_eq (x0 : FVec Ideal S64x1024 .f32) (x1 x2 : FVec Ideal S1024x1024 .f32) (x4 : FVec Ideal S64x1024x1024 .f32) :
    val_main_v8 (F := Ideal) x0 x1 x2 x4 = current x0 x1 x2 x4 := by
  funext i
  rw [val_main_v8_apply, val_main_v2_apply, val_main_v1_apply, val_main_v0_apply, val_main_v7_apply, val_main_v5_apply,
    val_main_v3_apply, val_main_v6_apply, val_main_v4_apply, synapse_of_rowSynapse, synapse_of_rowSynapse',
    line_of_rowSynapse]
  rfl

/-- The reference's third result is the refractory current (argument 3 holds the previous spikes, argument 5 the
    refractory state). -/
theorem refractory_eq (x3 x5 : FVec Ideal S64x1024 .f32) :
    val_main_v12 (F := Ideal) x3 x5 = refractory x3 x5 := by
  funext i
  rw [val_main_v12_apply, val_main_v11_apply, val_main_v10_apply, val_main_cst_0_apply]
  rfl

/-- The reference's row sum, started from the constant 0, is the drive. -/
theorem drive_eq (x0 : FVec Ideal S64x1024 .f32) (x1 x2 : FVec Ideal S1024x1024 .f32) (x4 : FVec Ideal S64x1024x1024 .f32)
    (i : S64x1024.Idx) : val_main_v9 (F := Ideal) x0 x1 x2 x4 i = drive x0 x1 x2 x4 i := by
  rw [val_main_v9_apply, val_main_cst_apply, current_eq, Ideal.ofBits_def, Ideal.ofBits_zero_f32, zero_add]
  exact Finset.sum_congr rfl fun k _ => congrArg (current x0 x1 x2 x4)
    (funext fun a => Fin.ext (by match a with | ⟨0, _⟩ => rfl | ⟨1, _⟩ => rfl | ⟨2, _⟩ => rfl))

/-- The reference's first result is the spike. -/
theorem spike_eq (x0 : FVec Ideal S64x1024 .f32) (x1 x2 : FVec Ideal S1024x1024 .f32) (x3 : FVec Ideal S64x1024 .f32)
    (x4 : FVec Ideal S64x1024x1024 .f32) (x5 : FVec Ideal S64x1024 .f32) :
    val_main_v20 (F := Ideal) x0 x1 x2 x3 x4 x5 = spike x0 x1 x2 x3 x4 x5 := by
  funext i
  rw [val_main_v20_apply, val_main_v19_apply, val_main_v17_apply, val_main_v15_apply, drive_eq, val_main_v14_apply,
    val_main_v13_apply, val_main_cst_1_apply, refractory_eq, val_main_v16_apply, val_main_cst_2_apply,
    val_main_v18_apply, val_main_cst_3_apply]
  rfl

end Cert.SpikingStep.OfReference

end
-- ==== Proof.Origins.lean ====
/-
  A rectangle that starts at the origin and has its buffer's full extents is the whole buffer; the two facts below say
  "starts at the origin" for buffers of two and of three axes, in the form the library's lemmas about such
  rectangles ask for.
-/
import Mathlib.Data.Fin.VecNotation

namespace Cert.SpikingStep

theorem origin2 : (![0, 0] : Fin 2 → Nat) = fun _ => 0 :=
  funext fun a => by match a with | ⟨0, _⟩ => rfl | ⟨1, _⟩ => rfl

theorem origin3 : (![0, 0, 0] : Fin 3 → Nat) = fun _ => 0 :=
  funext fun a => by match a with | ⟨0, _⟩ => rfl | ⟨1, _⟩ => rfl | ⟨2, _⟩ => rfl

end Cert.SpikingStep
-- ==== Proof.KernelSpike.lean ====
/-
  The kernel's first result is the spike of SpikingStep.lean.

  Grid point (jt, bt) has the same blocks as for the other two results. For its 16 by 128 output block it forms the
  16 by 128 by 1024 block of currents, sums it along the lines, subtracts 1 * (r * state + spikes), subtracts 1, compares
  with 0, widens the comparison's bit with zeros to 32 bits and reads that word as a signed integer. Entry (p, q) of the
  block therefore sums, over the line k, decay(q, k) * state(p, q, k) + weight(q, k) * input(p, k) of the point's blocks; in
  array coordinates that is the sum over k of the current at (16*bt + p, 128*jt + q, k): the drive of row 16*bt + p and
  neuron 128*jt + q. The refractory term reads its two blocks at (p, q), which is the array entry
  (16*bt + p, 128*jt + q). A zero-widened bit read signed is the bit read unsigned, so the float is the spike.
  The 4 by 8 output blocks tile the 64 by 1024 array.
-/
import proofs.«160878_j59399397704145_1_alg».proof.Proof.Gen.KernelIdeal.Value
import proofs.«160878_j59399397704145_1_alg».proof.Proof.SpikingStep
import proofs.«160878_j59399397704145_1_alg».proof.Proof.Origins
import Idealize.ShloMosaic.PureOps.Ideal.Laws

set_option maxRecDepth 16384

noncomputable section

namespace Cert.SpikingStep.OfKernel

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-! ## The body's arithmetic on one block, entry by entry -/

/-- The block of currents the body forms, at entry (p, q, k): decay(q, k) * state(p, q, k) + weight(q, k) * input(p, k). -/
theorem current_block_apply (decay weight : Vec Ideal S128x1024 .f32) (state : Vec Ideal S16x128x1024 .f32)
    (input : Vec Ideal S16x1024 .f32) (y : S16x128x1024.Idx) :
    k0_pay1 weight decay input state y = E7 decay state weight input y := by
  have h := canon7_eq decay state weight input y
  rw [View.canon_unit_zero origin3] at h
  exact h

/-- The body's sum along the lines, at entry (p, q) of the block. -/
theorem drive_block_apply (decay weight : Vec Ideal S128x1024 .f32) (state : Vec Ideal S16x128x1024 .f32)
    (input : Vec Ideal S16x1024 .f32) (y : S16x128.Idx) :
    multiReduction (F := Ideal) .add [2] S16x128 (k0_pay1 weight decay input state) 0x00000000#32
        reduces_S16x128x1024_S16x128 (.inl rfl) rfl y
      = ∑ k : Fin 1024, FloatOps.addf (F := Ideal) (φ := .f32)
          (FloatOps.mulf (F := Ideal) (φ := .f32) (decay (ix2 (y 1) k)) (state (ix3 (y 0) (y 1) k)))
          (FloatOps.mulf (F := Ideal) (φ := .f32) (weight (ix2 (y 1) k)) (input (ix2 (y 0) k))) := by
  refine (Ideal.multiReduction_add_single (k0_pay1 weight decay input state) 0x00000000#32
    reduces_S16x128x1024_S16x128 (.inl rfl) rfl y).trans ?_
  refine Finset.sum_congr rfl fun k _ => ?_
  have hl : (reduces_S16x128x1024_S16x128.lift y k : S16x128x1024.Idx) = ix3 (y 0) (y 1) k :=
    funext fun a => Fin.ext (by match a with | ⟨0, _⟩ => rfl | ⟨1, _⟩ => rfl | ⟨2, _⟩ => rfl)
  rw [hl]
  refine (current_block_apply decay weight state input _).trans ?_
  have a0 : ix7_0 (ix3 (y 0) (y 1) k) = ix2 (y 1) k :=
    funext fun a => Fin.ext (by match a with | ⟨0, _⟩ => rfl | ⟨1, _⟩ => rfl)
  have a1 : ix7_1 (ix3 (y 0) (y 1) k) = ix3 (y 0) (y 1) k :=
    funext fun a => Fin.ext (by match a with | ⟨0, _⟩ => rfl | ⟨1, _⟩ => rfl | ⟨2, _⟩ => rfl)
  have a2 : ix7_2 (ix3 (y 0) (y 1) k) = ix2 (y 1) k :=
    funext fun a => Fin.ext (by match a with | ⟨0, _⟩ => rfl | ⟨1, _⟩ => rfl)
  have a3 : ix7_3 (ix3 (y 0) (y 1) k) = ix2 (y 0) k :=
    funext fun a => Fin.ext (by match a with | ⟨0, _⟩ => rfl | ⟨1, _⟩ => rfl)
  show FloatOps.addf (F := Ideal) (φ := .f32)
      (FloatOps.mulf (F := Ideal) (φ := .f32) (decay (ix7_0 (ix3 (y 0) (y 1) k))) (state (ix7_1 (ix3 (y 0) (y 1) k))))
      (FloatOps.mulf (F := Ideal) (φ := .f32) (weight (ix7_2 (ix3 (y 0) (y 1) k))) (input (ix7_3 (ix3 (y 0) (y 1) k)))) = _
  rw [a0, a1, a2, a3]
  rfl

/-- The body's spike block, at entry (p, q): the comparison of (row sum - 1 * refractory) - 1 with 0, as the float 0 or 1. -/
theorem spike_block_apply (decay weight : Vec Ideal S128x1024 .f32) (state : Vec Ideal S16x128x1024 .f32)
    (input : Vec Ideal S16x1024 .f32) (refr spikes : Vec Ideal S16x128 .f32) (y : S16x128.Idx) :
    k0_pay3 weight decay input state spikes refr y
      = FloatOps.uitofp (F := Ideal) .f32 (FloatOps.cmpf (F := Ideal) (φ := .f32) .oge
          (FloatOps.subf (F := Ideal) (φ := .f32)
            (FloatOps.subf (F := Ideal) (φ := .f32)
              (∑ k : Fin 1024, FloatOps.addf (F := Ideal) (φ := .f32)
                (FloatOps.mulf (F := Ideal) (φ := .f32) (decay (ix2 (y 1) k)) (state (ix3 (y 0) (y 1) k)))
                (FloatOps.mulf (F := Ideal) (φ := .f32) (weight (ix2 (y 1) k)) (input (ix2 (y 0) k))))
              (FloatOps.mulf (F := Ideal) (φ := .f32) (FloatOps.ofBits (F := Ideal) .f32 0x3F800000#32)
                (FloatOps.addf (F := Ideal) (φ := .f32)
                  (FloatOps.mulf (F := Ideal) (φ := .f32) (FloatOps.ofBits (F := Ideal) .f32 0x3F7383C6#32) (refr y)) (spikes y))))
            (FloatOps.ofBits (F := Ideal) .f32 0x3F800000#32))
          (FloatOps.ofBits (F := Ideal) .f32 0x00000000#32)) := by
  have h := canon6_eq decay state weight input refr spikes y
  rw [View.canon_unit_zero origin2] at h
  refine h.trans ?_
  refine (sitofp_widen_bit _).trans ?_
  have e0 : ix6_0 y = y := funext fun a => Fin.ext (by match a with | ⟨0, _⟩ => rfl | ⟨1, _⟩ => rfl)
  have e1 : ix6_1 y = y := funext fun a => Fin.ext (by match a with | ⟨0, _⟩ => rfl | ⟨1, _⟩ => rfl)
  have e2 : ix6_2 y = y := funext fun a => Fin.ext (by match a with | ⟨0, _⟩ => rfl | ⟨1, _⟩ => rfl)
  show FloatOps.uitofp (F := Ideal) .f32 (FloatOps.cmpf (F := Ideal) (φ := .f32) .oge
          (FloatOps.subf (F := Ideal) (φ := .f32)
            (FloatOps.subf (F := Ideal) (φ := .f32)
              (multiReduction (F := Ideal) .add [2] S16x128 (k0_pay1 weight decay input state) 0x00000000#32
                reduces_S16x128x1024_S16x128 (.inl rfl) rfl (ix6_0 y))
              (FloatOps.mulf (F := Ideal) (φ := .f32) (FloatOps.ofBits (F := Ideal) .f32 0x3F800000#32)
                (FloatOps.addf (F := Ideal) (φ := .f32)
                  (FloatOps.mulf (F := Ideal) (φ := .f32) (FloatOps.ofBits (F := Ideal) .f32 0x3F7383C6#32) (refr (ix6_1 y)))
                  (spikes (ix6_2 y)))))
            (FloatOps.ofBits (F := Ideal) .f32 0x3F800000#32))
          (FloatOps.ofBits (F := Ideal) .f32 0x00000000#32)) = _
  rw [e0, e1, e2, drive_block_apply]

/-! ## From the block to the array -/

/-- At every grid point: the input block is at the output block's row position, the weight and decay blocks at its
    neuron position, the three 16 by 128 input blocks and the state block at its own position; no window is cut
    along the lines; and the output block's position is one of the 4 by 8. -/
theorem spike_blocks_aligned : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (1 : Fin 2) ∧ win0_2.index t (1 : Fin 2) = 0
    ∧ win0_3.index t (0 : Fin 2) = win0_6.index t (0 : Fin 2) ∧ win0_3.index t (1 : Fin 2) = win0_6.index t (1 : Fin 2)
    ∧ win0_4.index t (0 : Fin 3) = win0_6.index t (0 : Fin 2) ∧ win0_4.index t (1 : Fin 3) = win0_6.index t (1 : Fin 2)
    ∧ win0_4.index t (2 : Fin 3) = 0
    ∧ win0_5.index t (0 : Fin 2) = win0_6.index t (0 : Fin 2) ∧ win0_5.index t (1 : Fin 2) = win0_6.index t (1 : Fin 2)
    ∧ win0_6.index t (0 : Fin 2) ≤ 3 ∧ win0_6.index t (1 : Fin 2) ≤ 7 :=
  (by decide +kernel : ∀ t : Fin grid0.N, _)

/-- Every one of the 4 by 8 block positions is some grid point's. -/
theorem spike_blocks_onto : ∀ (q0 : Fin 4) (q1 : Fin 8), ∃ t : Fin cfg0.N, win0_6.index t = ![q0.val, q1.val] :=
  (by decide +kernel : ∀ (q0 : Fin 4) (q1 : Fin 8), ∃ t : Fin grid0.N, win0_6.index t = ![q0.val, q1.val])

/-- What a grid point writes back to the first result is its block of the spikes. -/
theorem spike_written (c : Dev nD) (t : Fin cfg0.N) :
    (dats m 0 c).flushed 6 t = ((cfg0.win 6).blk t).view.read (Elt Ideal)
      (spike (V m c main_arg0) (V m c main_arg1) (V m c main_arg2) (V m c main_arg3) (V m c main_arg4)
        (V m c main_arg5)) := by
  rw [Value.flushed6]
  unfold out0_6
  rw [View.canon_unit_zero origin2]
  simp only [View.ld_unit_zero (S := S128x1024) origin2, View.ld_unit_zero (S := S16x1024) origin2,
    View.ld_unit_zero (S := S16x128x1024) origin3, View.ld_unit_zero (S := S16x128) origin2]
  obtain ⟨x0, x1, w0, w1, d0, d1, z0, z1, s0, s1, s2, r0, r1, -, -⟩ := spike_blocks_aligned t
  funext j
  have hj0 : (j 0).val < 16 := (j 0).isLt
  have hj1 : (j 1).val < 128 := (j 1).isLt
  refine (spike_block_apply (iblk m c 2 t) (iblk m c 1 t) (iblk m c 4 t) (iblk m c 0 t) (iblk m c 5 t)
    (iblk m c 3 t) j).trans ?_
  show FloatOps.uitofp (F := Ideal) .f32 (FloatOps.cmpf (F := Ideal) (φ := .f32) .oge
        (FloatOps.subf (F := Ideal) (φ := .f32)
          (FloatOps.subf (F := Ideal) (φ := .f32)
            (∑ k : Fin 1024, FloatOps.addf (F := Ideal) (φ := .f32)
              (FloatOps.mulf (F := Ideal) (φ := .f32) (V m c main_arg2 (((cfg0.win 2).blk t).view.emb (ix2 (j 1) k)))
                (V m c main_arg4 (((cfg0.win 4).blk t).view.emb (ix3 (j 0) (j 1) k))))
              (FloatOps.mulf (F := Ideal) (φ := .f32) (V m c main_arg1 (((cfg0.win 1).blk t).view.emb (ix2 (j 1) k)))
                (V m c main_arg0 (((cfg0.win 0).blk t).view.emb (ix2 (j 0) k)))))
            (FloatOps.mulf (F := Ideal) (φ := .f32) (FloatOps.ofBits (F := Ideal) .f32 0x3F800000#32)
              (FloatOps.addf (F := Ideal) (φ := .f32)
                (FloatOps.mulf (F := Ideal) (φ := .f32) (FloatOps.ofBits (F := Ideal) .f32 0x3F7383C6#32) (V m c main_arg5 (((cfg0.win 5).blk t).view.emb j)))
                (V m c main_arg3 (((cfg0.win 3).blk t).view.emb j)))))
          (FloatOps.ofBits (F := Ideal) .f32 0x3F800000#32))
        (FloatOps.ofBits (F := Ideal) .f32 0x00000000#32))
      = FloatOps.uitofp (F := Ideal) .f32 (FloatOps.cmpf (F := Ideal) (φ := .f32) .oge
        (FloatOps.subf (F := Ideal) (φ := .f32)
          (FloatOps.subf (F := Ideal) (φ := .f32)
            (∑ k : Fin 1024, FloatOps.addf (F := Ideal) (φ := .f32)
              (FloatOps.mulf (F := Ideal) (φ := .f32) (V m c main_arg2 (ix2 ((((cfg0.win 6).blk t).view.emb j) 1) k)) (V m c main_arg4 (ix3 ((((cfg0.win 6).blk t).view.emb j) 0) ((((cfg0.win 6).blk t).view.emb j) 1) k)))
              (FloatOps.mulf (F := Ideal) (φ := .f32) (V m c main_arg1 (ix2 ((((cfg0.win 6).blk t).view.emb j) 1) k)) (V m c main_arg0 (ix2 ((((cfg0.win 6).blk t).view.emb j) 0) k))))
            (FloatOps.mulf (F := Ideal) (φ := .f32) (FloatOps.ofBits (F := Ideal) .f32 0x3F800000#32)
              (FloatOps.addf (F := Ideal) (φ := .f32)
                (FloatOps.mulf (F := Ideal) (φ := .f32) (FloatOps.ofBits (F := Ideal) .f32 0x3F7383C6#32) (V m c main_arg5 (((cfg0.win 6).blk t).view.emb j)))
                (V m c main_arg3 (((cfg0.win 6).blk t).view.emb j)))))
          (FloatOps.ofBits (F := Ideal) .f32 0x3F800000#32))
        (FloatOps.ofBits (F := Ideal) .f32 0x00000000#32))
  have hspikes : ((cfg0.win 3).blk t).view.emb j = (((cfg0.win 6).blk t).view.emb j) := by
    funext a; apply Fin.ext
    match a with
    | ⟨0, _⟩ => show win0_3.index t (0 : Fin 2) * 16 + 1 * (j 0).val = win0_6.index t (0 : Fin 2) * 16 + 1 * (j 0).val; omega
    | ⟨1, _⟩ => show win0_3.index t (1 : Fin 2) * 128 + 1 * (j 1).val = win0_6.index t (1 : Fin 2) * 128 + 1 * (j 1).val; omega
  have hrefr : ((cfg0.win 5).blk t).view.emb j = (((cfg0.win 6).blk t).view.emb j) := by
    funext a; apply Fin.ext
    match a with
    | ⟨0, _⟩ => show win0_5.index t (0 : Fin 2) * 16 + 1 * (j 0).val = win0_6.index t (0 : Fin 2) * 16 + 1 * (j 0).val; omega
    | ⟨1, _⟩ => show win0_5.index t (1 : Fin 2) * 128 + 1 * (j 1).val = win0_6.index t (1 : Fin 2) * 128 + 1 * (j 1).val; omega
  have hdecay : ∀ k : Fin 1024, ((cfg0.win 2).blk t).view.emb (ix2 (j 1) k) = ix2 ((((cfg0.win 6).blk t).view.emb j) 1) k := fun k => by
    funext a; apply Fin.ext
    match a with
    | ⟨0, _⟩ => show win0_2.index t (0 : Fin 2) * 128 + 1 * (j 1).val = win0_6.index t (1 : Fin 2) * 128 + 1 * (j 1).val; omega
    | ⟨1, _⟩ => show win0_2.index t (1 : Fin 2) * 1024 + 1 * k.val = k.val; omega
  have hweight : ∀ k : Fin 1024, ((cfg0.win 1).blk t).view.emb (ix2 (j 1) k) = ix2 ((((cfg0.win 6).blk t).view.emb j) 1) k := fun k => by
    funext a; apply Fin.ext
    match a with
    | ⟨0, _⟩ => show win0_1.index t (0 : Fin 2) * 128 + 1 * (j 1).val = win0_6.index t (1 : Fin 2) * 128 + 1 * (j 1).val; omega
    | ⟨1, _⟩ => show win0_1.index t (1 : Fin 2) * 1024 + 1 * k.val = k.val; omega
  have hinput : ∀ k : Fin 1024, ((cfg0.win 0).blk t).view.emb (ix2 (j 0) k) = ix2 ((((cfg0.win 6).blk t).view.emb j) 0) k := fun k => by
    funext a; apply Fin.ext
    match a with
    | ⟨0, _⟩ => show win0_0.index t (0 : Fin 2) * 16 + 1 * (j 0).val = win0_6.index t (0 : Fin 2) * 16 + 1 * (j 0).val; omega
    | ⟨1, _⟩ => show win0_0.index t (1 : Fin 2) * 1024 + 1 * k.val = k.val; omega
  have hstate : ∀ k : Fin 1024, ((cfg0.win 4).blk t).view.emb (ix3 (j 0) (j 1) k) = ix3 ((((cfg0.win 6).blk t).view.emb j) 0) ((((cfg0.win 6).blk t).view.emb j) 1) k := fun k => by
    funext a; apply Fin.ext
    match a with
    | ⟨0, _⟩ => show win0_4.index t (0 : Fin 3) * 16 + 1 * (j 0).val = win0_6.index t (0 : Fin 2) * 16 + 1 * (j 0).val; omega
    | ⟨1, _⟩ => show win0_4.index t (1 : Fin 3) * 128 + 1 * (j 1).val = win0_6.index t (1 : Fin 2) * 128 + 1 * (j 1).val; omega
    | ⟨2, _⟩ => show win0_4.index t (2 : Fin 3) * 1024 + 1 * k.val = k.val; omega
  rw [hspikes, hrefr]
  simp only [hdecay, hweight, hinput, hstate]
  rfl

/-- An entry of the array is in a point's output block exactly when each coordinate is in the block's range. -/
theorem mem_spike_block (t : Fin cfg0.N) (i : S64x1024.Idx) :
    i ∈ ((cfg0.win 6).blk t).view.set ↔ ∀ a : Fin 2, win0_6.index t a * S16x128.size a ≤ (i a).val
      ∧ (i a).val < win0_6.index t a * S16x128.size a + S16x128.size a := by
  show i ∈ ((View.whole main_v0_0).slice (win0_6.rect t)).set ↔ _
  rw [View.set_slice_whole, Rect.mem_set_unit]
  exact Iff.rfl

/-- The output blocks tile the array: row r, neuron n is in the block at position (r / 16, n / 128). -/
theorem spike_covered (i : S64x1024.Idx) :
    ∃ t : Fin cfg0.N, (cfg0.win 6).flush t = true ∧ i ∈ ((cfg0.win 6).blk t).view.set := by
  have hi0 : (i 0).val < 64 := (i 0).isLt
  have hi1 : (i 1).val < 1024 := (i 1).isLt
  obtain ⟨t, ht⟩ := spike_blocks_onto ⟨(i 0).val / 16, by omega⟩ ⟨(i 1).val / 128, by omega⟩
  have q0 : win0_6.index t (0 : Fin 2) = (i 0).val / 16 := congrFun ht 0
  have q1 : win0_6.index t (1 : Fin 2) = (i 1).val / 128 := congrFun ht 1
  refine ⟨t, flush0_6 t, ?_⟩
  rw [mem_spike_block]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 128 ≤ (i 1).val ∧ (i 1).val < win0_6.index t (1 : Fin 2) * 128 + 128; omega

/-- After the run the first result holds the spikes of the arguments. -/
theorem spike_final (c : Dev nD) :
    (dats m 0 c).arrAt 6 cfg0.N = spike (V m c main_arg0) (V m c main_arg1) (V m c main_arg2) (V m c main_arg3)
      (V m c main_arg4) (V m c main_arg5) :=
  (dats m 0 c).arrAt_eq_of_cover 6
    (spike (V m c main_arg0) (V m c main_arg1) (V m c main_arg2) (V m c main_arg3) (V m c main_arg4) (V m c main_arg5))
    (fun t _ => spike_written m c t) spike_covered

end Cert.SpikingStep.OfKernel

end
-- ==== Proof.KernelCurrent.lean ====
/-
  The kernel's second result is the synaptic current of SpikingStep.lean.

  Grid point (jt, bt) loads the 16 input rows of its batch tile (all 1024 lines), the 128 rows of the weights and of
  the decays of its neuron tile (all 1024 lines), and the 16 by 128 by 1024 block of synaptic state, and stores
  decay * state + weight * input over its whole 16 by 128 by 1024 output block: entry (p, q, i) of that block reads the
  decay and weight blocks at (q, i), the state block at (p, q, i) and the input block at (p, i). In array coordinates
  these are the synapse (128*jt + q, i), the entry (16*bt + p, 128*jt + q, i) and the entry (16*bt + p, i): exactly what
  the current reads at the array entry (16*bt + p, 128*jt + q, i). The 4 by 8 output blocks (one along the lines) tile
  the 64 by 1024 by 1024 array.
-/
import proofs.«160878_j59399397704145_1_alg».proof.Proof.Gen.KernelIdeal.Value
import proofs.«160878_j59399397704145_1_alg».proof.Proof.SpikingStep
import proofs.«160878_j59399397704145_1_alg».proof.Proof.Origins

set_option maxRecDepth 16384

noncomputable section

namespace Cert.SpikingStep.OfKernel

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- At every grid point: the input block is at the output block's row position, the weight and decay blocks at its
    neuron position, the state block at its own position; no window is cut along the lines; and the output block's
    position is one of the 4 by 8. -/
theorem current_blocks_aligned : ∀ t : Fin cfg0.N,
    win0_0.index t (0 : Fin 2) = win0_7.index t (0 : Fin 3) ∧ win0_0.index t (1 : Fin 2) = 0
    ∧ win0_1.index t (0 : Fin 2) = win0_7.index t (1 : Fin 3) ∧ win0_1.index t (1 : Fin 2) = 0
    ∧ win0_2.index t (0 : Fin 2) = win0_7.index t (1 : Fin 3) ∧ win0_2.index t (1 : Fin 2) = 0
    ∧ win0_4.index t (0 : Fin 3) = win0_7.index t (0 : Fin 3) ∧ win0_4.index t (1 : Fin 3) = win0_7.index t (1 : Fin 3)
    ∧ win0_4.index t (2 : Fin 3) = 0 ∧ win0_7.index t (2 : Fin 3) = 0
    ∧ win0_7.index t (0 : Fin 3) ≤ 3 ∧ win0_7.index t (1 : Fin 3) ≤ 7 :=
  (by decide +kernel : ∀ t : Fin grid0.N, _)

/-- Every one of the 4 by 8 block positions is some grid point's. -/
theorem current_blocks_onto : ∀ (q0 : Fin 4) (q1 : Fin 8), ∃ t : Fin cfg0.N, win0_7.index t = ![q0.val, q1.val, 0] :=
  (by decide +kernel : ∀ (q0 : Fin 4) (q1 : Fin 8), ∃ t : Fin grid0.N, win0_7.index t = ![q0.val, q1.val, 0])

/-- What a grid point writes back to the second result is its block of the synaptic current. -/
theorem current_written (c : Dev nD) (t : Fin cfg0.N) :
    (dats m 0 c).flushed 7 t = ((cfg0.win 7).blk t).view.read (Elt Ideal)
      (current (V m c main_arg0) (V m c main_arg1) (V m c main_arg2) (V m c main_arg4)) := by
  rw [Value.flushed7]
  unfold out0_7
  obtain ⟨x0, x1, w0, w1, d0, d1, s0, s1, s2, o2, -, -⟩ := current_blocks_aligned t
  funext j
  refine (canon7_eq _ _ _ _ j).trans ?_
  simp only [View.ld_unit_zero (S := S128x1024) origin2, View.ld_unit_zero (S := S16x1024) origin2,
    View.ld_unit_zero (S := S16x128x1024) origin3]
  have hj0 : (j 0).val < 16 := (j 0).isLt
  have hj1 : (j 1).val < 128 := (j 1).isLt
  have hj2 : (j 2).val < 1024 := (j 2).isLt
  show FloatOps.addf (F := Ideal) (φ := .f32)
        (FloatOps.mulf (F := Ideal) (φ := .f32) (V m c main_arg2 (((cfg0.win 2).blk t).view.emb (ix7_0 j)))
          (V m c main_arg4 (((cfg0.win 4).blk t).view.emb (ix7_1 j))))
        (FloatOps.mulf (F := Ideal) (φ := .f32) (V m c main_arg1 (((cfg0.win 1).blk t).view.emb (ix7_2 j)))
          (V m c main_arg0 (((cfg0.win 0).blk t).view.emb (ix7_3 j))))
      = FloatOps.addf (F := Ideal) (φ := .f32)
        (FloatOps.mulf (F := Ideal) (φ := .f32)
          (V m c main_arg2 (ix2 ((((cfg0.win 7).blk t).view.emb j) 1) ((((cfg0.win 7).blk t).view.emb j) 2)))
          (V m c main_arg4 (((cfg0.win 7).blk t).view.emb j)))
        (FloatOps.mulf (F := Ideal) (φ := .f32)
          (V m c main_arg1 (ix2 ((((cfg0.win 7).blk t).view.emb j) 1) ((((cfg0.win 7).blk t).view.emb j) 2)))
          (V m c main_arg0 (ix2 ((((cfg0.win 7).blk t).view.emb j) 0) ((((cfg0.win 7).blk t).view.emb j) 2))))
  have hdecay : ((cfg0.win 2).blk t).view.emb (ix7_0 j)
      = ix2 ((((cfg0.win 7).blk t).view.emb j) 1) ((((cfg0.win 7).blk t).view.emb j) 2) := by
    funext a; apply Fin.ext
    match a with
    | ⟨0, _⟩ => show win0_2.index t (0 : Fin 2) * 128 + 1 * (j 1).val = win0_7.index t (1 : Fin 3) * 128 + 1 * (j 1).val; omega
    | ⟨1, _⟩ => show win0_2.index t (1 : Fin 2) * 1024 + 1 * (j 2).val = win0_7.index t (2 : Fin 3) * 1024 + 1 * (j 2).val; omega
  have hweight : ((cfg0.win 1).blk t).view.emb (ix7_2 j)
      = ix2 ((((cfg0.win 7).blk t).view.emb j) 1) ((((cfg0.win 7).blk t).view.emb j) 2) := by
    funext a; apply Fin.ext
    match a with
    | ⟨0, _⟩ => show win0_1.index t (0 : Fin 2) * 128 + 1 * (j 1).val = win0_7.index t (1 : Fin 3) * 128 + 1 * (j 1).val; omega
    | ⟨1, _⟩ => show win0_1.index t (1 : Fin 2) * 1024 + 1 * (j 2).val = win0_7.index t (2 : Fin 3) * 1024 + 1 * (j 2).val; omega
  have hinput : ((cfg0.win 0).blk t).view.emb (ix7_3 j)
      = ix2 ((((cfg0.win 7).blk t).view.emb j) 0) ((((cfg0.win 7).blk t).view.emb j) 2) := by
    funext a; apply Fin.ext
    match a with
    | ⟨0, _⟩ => show win0_0.index t (0 : Fin 2) * 16 + 1 * (j 0).val = win0_7.index t (0 : Fin 3) * 16 + 1 * (j 0).val; omega
    | ⟨1, _⟩ => show win0_0.index t (1 : Fin 2) * 1024 + 1 * (j 2).val = win0_7.index t (2 : Fin 3) * 1024 + 1 * (j 2).val; omega
  have hstate : ((cfg0.win 4).blk t).view.emb (ix7_1 j) = ((cfg0.win 7).blk t).view.emb j := by
    funext a; apply Fin.ext
    match a with
    | ⟨0, _⟩ => show win0_4.index t (0 : Fin 3) * 16 + 1 * (j 0).val = win0_7.index t (0 : Fin 3) * 16 + 1 * (j 0).val; omega
    | ⟨1, _⟩ => show win0_4.index t (1 : Fin 3) * 128 + 1 * (j 1).val = win0_7.index t (1 : Fin 3) * 128 + 1 * (j 1).val; omega
    | ⟨2, _⟩ => show win0_4.index t (2 : Fin 3) * 1024 + 1 * (j 2).val = win0_7.index t (2 : Fin 3) * 1024 + 1 * (j 2).val; omega
  rw [hdecay, hweight, hinput, hstate]
  rfl

/-- An entry of the array is in a point's output block exactly when each coordinate is in the block's range. -/
theorem mem_current_block (t : Fin cfg0.N) (i : S64x1024x1024.Idx) :
    i ∈ ((cfg0.win 7).blk t).view.set ↔ ∀ a : Fin 3, win0_7.index t a * S16x128x1024.size a ≤ (i a).val
      ∧ (i a).val < win0_7.index t a * S16x128x1024.size a + S16x128x1024.size a := by
  show i ∈ ((View.whole main_v0_1).slice (win0_7.rect t)).set ↔ _
  rw [View.set_slice_whole, Rect.mem_set_unit]
  exact Iff.rfl

/-- The output blocks tile the array: entry (r, n, i) is in the block at position (r / 16, n / 128, 0). -/
theorem current_covered (i : S64x1024x1024.Idx) :
    ∃ t : Fin cfg0.N, (cfg0.win 7).flush t = true ∧ i ∈ ((cfg0.win 7).blk t).view.set := by
  have hi0 : (i 0).val < 64 := (i 0).isLt
  have hi1 : (i 1).val < 1024 := (i 1).isLt
  have hi2 : (i 2).val < 1024 := (i 2).isLt
  obtain ⟨t, ht⟩ := current_blocks_onto ⟨(i 0).val / 16, by omega⟩ ⟨(i 1).val / 128, by omega⟩
  have q0 : win0_7.index t (0 : Fin 3) = (i 0).val / 16 := congrFun ht 0
  have q1 : win0_7.index t (1 : Fin 3) = (i 1).val / 128 := congrFun ht 1
  have q2 : win0_7.index t (2 : Fin 3) = 0 := congrFun ht 2
  refine ⟨t, flush0_7 t, ?_⟩
  rw [mem_current_block]
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 128 ≤ (i 1).val ∧ (i 1).val < win0_7.index t (1 : Fin 3) * 128 + 128; omega
  | ⟨2, _⟩ => show win0_7.index t (2 : Fin 3) * 1024 ≤ (i 2).val ∧ (i 2).val < win0_7.index t (2 : Fin 3) * 1024 + 1024; omega

/-- After the run the second result holds the synaptic current of the arguments. -/
theorem current_final (c : Dev nD) :
    (dats m 0 c).arrAt 7 cfg0.N = current (V m c main_arg0) (V m c main_arg1) (V m c main_arg2) (V m c main_arg4) :=
  (dats m 0 c).arrAt_eq_of_cover 7 (current (V m c main_arg0) (V m c main_arg1) (V m c main_arg2) (V m c main_arg4))
    (fun t _ => current_written m c t) current_covered

end Cert.SpikingStep.OfKernel

end
-- ==== Proof.KernelRefractory.lean ====
/-
  The kernel's third result is the refractory current of SpikingStep.lean.

  The kernel walks a grid of 8 by 4 points; point (jt, bt) handles the 16 batch rows 16*bt .. 16*bt+15 and the 128
  neurons 128*jt .. 128*jt+127. For the refractory current it loads the matching 16 by 128 blocks of the previous spikes
  and of the refractory state, and stores r * state + spikes over its whole 16 by 128 output block. Entry (p, q) of the
  block at point (jt, bt) is entry (16*bt + p, 128*jt + q) of the array, for the inputs and for the output alike, so what
  the point writes back is that block of the refractory current. The 4 by 8 output blocks tile the 64 by 1024 array:
  row r and neuron n lie in the block of point (n / 128, r / 16).
-/
import proofs.«160878_j59399397704145_1_alg».proof.Proof.Gen.KernelIdeal.Value
import proofs.«160878_j59399397704145_1_alg».proof.Proof.SpikingStep
import proofs.«160878_j59399397704145_1_alg».proof.Proof.Origins

set_option maxRecDepth 16384

noncomputable section

namespace Cert.SpikingStep.OfKernel

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- At every grid point the two input blocks sit at the output block's position, and that position is one of the 4 by 8. -/
theorem refractory_blocks_aligned : ∀ t : Fin cfg0.N,
    win0_3.index t (0 : Fin 2) = win0_8.index t (0 : Fin 2) ∧ win0_3.index t (1 : Fin 2) = win0_8.index t (1 : Fin 2)
    ∧ win0_5.index t (0 : Fin 2) = win0_8.index t (0 : Fin 2) ∧ win0_5.index t (1 : Fin 2) = win0_8.index t (1 : Fin 2)
    ∧ win0_8.index t (0 : Fin 2) ≤ 3 ∧ win0_8.index t (1 : Fin 2) ≤ 7 :=
  (by decide +kernel : ∀ t : Fin grid0.N, _)

/-- Every one of the 4 by 8 block positions is some grid point's. -/
theorem refractory_blocks_onto : ∀ (q0 : Fin 4) (q1 : Fin 8), ∃ t : Fin cfg0.N, win0_8.index t = ![q0.val, q1.val] :=
  (by decide +kernel : ∀ (q0 : Fin 4) (q1 : Fin 8), ∃ t : Fin grid0.N, win0_8.index t = ![q0.val, q1.val])

/-- What a grid point writes back to the third result is its block of the refractory current. -/
theorem refractory_written (c : Dev nD) (t : Fin cfg0.N) :
    (dats m 0 c).flushed 8 t
      = ((cfg0.win 8).blk t).view.read (Elt Ideal) (refractory (V m c main_arg3) (V m c main_arg5)) := by
  rw [Value.flushed8]
  unfold out0_8
  rw [View.canon_unit_zero origin2]
  simp only [View.ld_unit_zero (S := S16x128) origin2]
  obtain ⟨e0, e1, e2, e3, -, -⟩ := refractory_blocks_aligned t
  funext j
  show FloatOps.addf (F := Ideal) (φ := .f32) (FloatOps.mulf (F := Ideal) (φ := .f32) (FloatOps.ofBits (F := Ideal) .f32 0x3F7383C6#32) (V m c main_arg5 (((cfg0.win 5).blk t).view.emb j)))
        (V m c main_arg3 (((cfg0.win 3).blk t).view.emb j))
      = FloatOps.addf (F := Ideal) (φ := .f32) (FloatOps.mulf (F := Ideal) (φ := .f32) (FloatOps.ofBits (F := Ideal) .f32 0x3F7383C6#32) (V m c main_arg5 (((cfg0.win 8).blk t).view.emb j)))
        (V m c main_arg3 (((cfg0.win 8).blk t).view.emb j))
  have h3 : ((cfg0.win 3).blk t).view.emb j = ((cfg0.win 8).blk t).view.emb j := by
    funext a; apply Fin.ext
    match a with
    | ⟨0, _⟩ => show win0_3.index t (0 : Fin 2) * 16 + 1 * (j 0).val = win0_8.index t (0 : Fin 2) * 16 + 1 * (j 0).val; omega
    | ⟨1, _⟩ => show win0_3.index t (1 : Fin 2) * 128 + 1 * (j 1).val = win0_8.index t (1 : Fin 2) * 128 + 1 * (j 1).val; omega
  have h5 : ((cfg0.win 5).blk t).view.emb j = ((cfg0.win 8).blk t).view.emb j := by
    funext a; apply Fin.ext
    match a with
    | ⟨0, _⟩ => show win0_5.index t (0 : Fin 2) * 16 + 1 * (j 0).val = win0_8.index t (0 : Fin 2) * 16 + 1 * (j 0).val; omega
    | ⟨1, _⟩ => show win0_5.index t (1 : Fin 2) * 128 + 1 * (j 1).val = win0_8.index t (1 : Fin 2) * 128 + 1 * (j 1).val; omega
  rw [h3, h5]

/-- An entry of the array is in a point's output block exactly when each coordinate is in the block's range. -/
theorem mem_refractory_block (t : Fin cfg0.N) (i : S64x1024.Idx) :
    i ∈ ((cfg0.win 8).blk t).view.set ↔ ∀ a : Fin 2, win0_8.index t a * S16x128.size a ≤ (i a).val
      ∧ (i a).val < win0_8.index t a * S16x128.size a + S16x128.size a := by
  show i ∈ ((View.whole main_v0_2).slice (win0_8.rect t)).set ↔ _
  rw [View.set_slice_whole, Rect.mem_set_unit]
  exact Iff.rfl

/-- The output blocks tile the array: row r, neuron n is in the block at position (r / 16, n / 128). -/
theorem refractory_covered (i : S64x1024.Idx) :
    ∃ t : Fin cfg0.N, (cfg0.win 8).flush t = true ∧ i ∈ ((cfg0.win 8).blk t).view.set := by
  have hi0 : (i 0).val < 64 := (i 0).isLt
  have hi1 : (i 1).val < 1024 := (i 1).isLt
  obtain ⟨t, ht⟩ := refractory_blocks_onto ⟨(i 0).val / 16, by omega⟩ ⟨(i 1).val / 128, by omega⟩
  have q0 : win0_8.index t (0 : Fin 2) = (i 0).val / 16 := congrFun ht 0
  have q1 : win0_8.index t (1 : Fin 2) = (i 1).val / 128 := congrFun ht 1
  refine ⟨t, flush0_8 t, ?_⟩
  rw [mem_refractory_block]
  intro a
  match a with
  | ⟨0, _⟩ => show win0_8.index t (0 : Fin 2) * 16 ≤ (i 0).val ∧ (i 0).val < win0_8.index t (0 : Fin 2) * 16 + 16; omega
  | ⟨1, _⟩ => show win0_8.index t (1 : Fin 2) * 128 ≤ (i 1).val ∧ (i 1).val < win0_8.index t (1 : Fin 2) * 128 + 128; omega

/-- After the run the third result holds the refractory current of the arguments. -/
theorem refractory_final (c : Dev nD) :
    (dats m 0 c).arrAt 8 cfg0.N = refractory (V m c main_arg3) (V m c main_arg5) :=
  (dats m 0 c).arrAt_eq_of_cover 8 (refractory (V m c main_arg3) (V m c main_arg5))
    (fun t _ => refractory_written m c t) refractory_covered

end Cert.SpikingStep.OfKernel

end
-- ==== Proof.lean ====
/-
  One time step of a spiking layer with a decay rate per synapse: the kernel against its array-at-a-time reference.

  Both programs take the input x (64 rows by 1024 lines), the weights w and the decays rho (1024 neurons by 1024 lines),
  the previous spikes hz and the refractory state hIr (64 by 1024) and the synaptic state hIsyn (64 by 1024 by 1024), and
  return the spikes z, the synaptic current Isyn and the refractory current Ir (SpikingStep.lean says what each is, entry
  by entry). They apply the same operations with the same constants to the same entries; the kernel does so block by
  block over a grid of 8 neuron tiles by 4 batch tiles, each point storing its whole block of each result.

    * The reference's three results are the step (ReferenceStep.lean): its arrays repeated along new axes read back to
      the entries the step names, and its row sum started from 0 is the sum.
    * What each grid point of the kernel writes back is its block of the step, and the blocks tile each result array
      (KernelSpike.lean, KernelCurrent.lean, KernelRefractory.lean): an entry of a block at grid point (jt, bt) is the
      array entry 16*bt and 128*jt further on, for inputs and outputs alike; the kernel's sum along the lines is the
      sum; a comparison bit widened with zeros and read signed is the bit read unsigned.

  So, from memories that agree on the six arguments, both runs end with the three results equal to the same three
  functions of the arguments. No property of the inputs is used: no law of arithmetic that could fail at an infinity
  is needed, only 0 + s = s. The idealization rewrote nothing, so there is nothing to preserve; each program's
  arguments end unchanged.
-/
import proofs.«160878_j59399397704145_1_alg».proof.Defs
import proofs.«160878_j59399397704145_1_alg».proof.Proof.Gen.Kernel
import proofs.«160878_j59399397704145_1_alg».proof.Proof.Gen.Kernel.Skeleton
import proofs.«160878_j59399397704145_1_alg».proof.Proof.Gen.Kernel.Launch
import proofs.«160878_j59399397704145_1_alg».proof.Proof.Gen.Kernel.Points
import proofs.«160878_j59399397704145_1_alg».proof.Proof.Gen.Kernel.Frame
import proofs.«160878_j59399397704145_1_alg».proof.Proof.Gen.KernelIdeal
import proofs.«160878_j59399397704145_1_alg».proof.Proof.Gen.KernelIdeal.Skeleton
import proofs.«160878_j59399397704145_1_alg».proof.Proof.Gen.KernelIdeal.Launch
import proofs.«160878_j59399397704145_1_alg».proof.Proof.Gen.KernelIdeal.Points
import proofs.«160878_j59399397704145_1_alg».proof.Proof.Gen.KernelIdeal.Frame
import proofs.«160878_j59399397704145_1_alg».proof.Proof.Gen.ReferenceIdeal
import proofs.«160878_j59399397704145_1_alg».proof.Proof.Gen.Pre_finite_inputs
import proofs.«160878_j59399397704145_1_alg».proof.Proof.Gen.KernelIdeal.Value
import proofs.«160878_j59399397704145_1_alg».proof.Proof.Gen.ReferenceIdeal.Run
import proofs.«160878_j59399397704145_1_alg».proof.Proof.Gen.ReferenceIdeal.Read
import proofs.«160878_j59399397704145_1_alg».proof.Proof.SpikingStep
import proofs.«160878_j59399397704145_1_alg».proof.Proof.ReferenceStep
import proofs.«160878_j59399397704145_1_alg».proof.Proof.KernelSpike
import proofs.«160878_j59399397704145_1_alg».proof.Proof.KernelCurrent
import proofs.«160878_j59399397704145_1_alg».proof.Proof.KernelRefractory
import Idealize.ShloMosaic.Adequacy
import Idealize.ShloMosaic.Init

noncomputable section

namespace Cert.Proof

open Idealize.ShloMosaic Idealize.ShloMosaic.TcCoe Idealize.SL.Sem Cert.SpikingStep

/-! ## The kernel's run ends at the step -/

section KernelRun

open Cert.KernelIdeal Cert.KernelIdeal.Gen

/-- Every weakly fair run of the idealized kernel ends with its three results at the spikes, the synaptic current and
    the refractory current of its arguments, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0)
          = spike (m ((c : Thread nD τ).loc main_arg0)) (m ((c : Thread nD τ).loc main_arg1))
              (m ((c : Thread nD τ).loc main_arg2)) (m ((c : Thread nD τ).loc main_arg3))
              (m ((c : Thread nD τ).loc main_arg4)) (m ((c : Thread nD τ).loc main_arg5))
      ∧ r.2.mem ((c : Thread nD τ).loc main_v0_1)
          = current (m ((c : Thread nD τ).loc main_arg0)) (m ((c : Thread nD τ).loc main_arg1))
              (m ((c : Thread nD τ).loc main_arg2)) (m ((c : Thread nD τ).loc main_arg4))
      ∧ r.2.mem ((c : Thread nD τ).loc main_v0_2)
          = refractory (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨(h c).1.trans (OfKernel.spike_final m c), (h c).2.1.trans (OfKernel.current_final m c),
      (h c).2.2.1.trans (OfKernel.refractory_final m c), (h c).2.2.2⟩)
    (Cert.KernelIdeal.Value.run_blocks m ρ)

end KernelRun

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's run with its three results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- From memories that agree on the arguments, both runs end with each result at the same function of the arguments. -/
theorem algebraic : Cert.algebraic_KernelIdeal_ReferenceIdeal := by
  intro m ρ m' ρ' _ hagree
  refine ⟨_, _, _, kernel_run m ρ, ?_⟩
  refine (θ_run Cert.ReferenceIdeal.defs _ _).mono (fun _ h c => ?_)
    (Cert.ReferenceIdeal.Value.run (F := Ideal) m' ρ')
  obtain ⟨a0, a1, a2, a3, a4, a5⟩ := hagree c
  refine ⟨?_, ?_, ?_, (h c).2.2.2⟩
  · rw [(h c).1, Cert.ReferenceIdeal.Read.val_main_v20_eq, OfReference.spike_eq, a0, a1, a2, a3, a4, a5]
  · rw [(h c).2.1, Cert.ReferenceIdeal.Read.val_main_v8_eq, OfReference.current_eq, a0, a1, a2, a4]
  · rw [(h c).2.2.1, Cert.ReferenceIdeal.Read.val_main_v12_eq, OfReference.refractory_eq, a3, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
